-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6400000 : Shape := ⟨1, ![6400000]⟩
abbrev S100000x1 : Shape := ⟨2, ![100000, 1]⟩
abbrev S6400000x2 : Shape := ⟨2, ![6400000, 2]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : FVec F S6400000 .f32) (main_arg1 : IVec S100000x1 32) (main_arg2 : IVec S6400000x2 32) : IVec S_ 1 :=
  let main_v0 : FVec F S6400000 .f32 := Host.absf main_arg0
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  main_v3
-- ==== Kernel.lean ====
abbrev S6400000 : Shape := ⟨1, ![6400000]⟩
abbrev S100000x1 : Shape := ⟨2, ![100000, 1]⟩
abbrev S6400000x2 : Shape := ⟨2, ![6400000, 2]⟩
abbrev S50000x128 : Shape := ⟨2, ![50000, 128]⟩
abbrev S5000x128 : Shape := ⟨2, ![5000, 128]⟩
abbrev S6400000x1 : Shape := ⟨2, ![6400000, 1]⟩
abbrev S_ : Shape := ⟨0, ![]⟩
abbrev S100000 : Shape := ⟨1, ![100000]⟩

abbrev nBuf : Space → Nat
  | .hbm => 15
  | .vmem => 4
  | .smem => 0
  | _ => 0

abbrev bufTy : (tb : Table) → Fin (tcTables nBuf tb) → BufTy
  | .hbm, ⟨0, _⟩ => ⟨S6400000, .f32⟩
  | .hbm, ⟨1, _⟩ => ⟨S100000x1, .i32⟩
  | .hbm, ⟨2, _⟩ => ⟨S6400000x2, .i32⟩
  | .hbm, ⟨3, _⟩ => ⟨S50000x128, .f32⟩
  | .hbm, ⟨4, _⟩ => ⟨S50000x128, .f32⟩
  | .hbm, ⟨5, _⟩ => ⟨S6400000, .f32⟩
  | .hbm, ⟨6, _⟩ => ⟨S6400000x1, .i32⟩
  | .hbm, ⟨7, _⟩ => ⟨S6400000, .i32⟩
  | .hbm, ⟨8, _⟩ => ⟨S_, .f32⟩
  | .hbm, ⟨9, _⟩ => ⟨S100000, .f32⟩
  | .hbm, ⟨10, _⟩ => ⟨S6400000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | _, _ => ⟨S6400000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S6400000 : S50000x128.ShapeCasts S6400000
  slices_S6400000x2_S6400000x1_0_0 : S6400000x2.Slices ![0, 0] S6400000x1
  shapeCasts_S6400000x1_S6400000 : S6400000x1.ShapeCasts S6400000
  bcast_S_S100000 : S_.BroadcastsInDim S100000 (![] : Fin 0 → Fin S100000.rank)
  bcast_S6400000_S6400000x1_0 : S6400000.BroadcastsInDim S6400000x1 (![0] : Fin 1 → Fin S6400000x1.rank)
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6400000 : Shape := ⟨1, ![6400000]⟩
abbrev S100000x1 : Shape := ⟨2, ![100000, 1]⟩
abbrev S6400000x2 : Shape := ⟨2, ![6400000, 2]⟩
abbrev S_ : Shape := ⟨0, ![]⟩
abbrev S6400000x1 : Shape := ⟨2, ![6400000, 1]⟩
abbrev S100000 : Shape := ⟨1, ![100000]⟩

abbrev nBuf : Space → Nat
  | .hbm => 26
  | .vmem => 0
  | .smem => 0
  | _ => 0

abbrev bufTy : (tb : Table) → Fin (tcTables nBuf tb) → BufTy
  | .hbm, ⟨0, _⟩ => ⟨S6400000, .f32⟩
  | .hbm, ⟨1, _⟩ => ⟨S100000x1, .i32⟩
  | .hbm, ⟨2, _⟩ => ⟨S6400000x2, .i32⟩
  | .hbm, ⟨3, _⟩ => ⟨S_, .f32⟩
  | .hbm, ⟨4, _⟩ => ⟨S6400000, .f32⟩
  | .hbm, ⟨5, _⟩ => ⟨S6400000, .f32⟩
  | .hbm, ⟨6, _⟩ => ⟨S6400000, .f32⟩
  | .hbm, ⟨7, _⟩ => ⟨S6400000, .f32⟩
  | .hbm, ⟨8, _⟩ => ⟨S6400000, .f32⟩
  | .hbm, ⟨9, _⟩ => ⟨S6400000, .f32⟩
  | .hbm, ⟨10, _⟩ => ⟨S6400000, .f32⟩
  | .hbm, ⟨11, _⟩ => ⟨S_, .f32⟩
  | .hbm, ⟨12, _⟩ => ⟨S6400000, .f32⟩
  | .hbm, ⟨13, _⟩ => ⟨S6400000, .f32⟩
  | .hbm, ⟨14, _⟩ => ⟨S_, .f32⟩
  | .hbm, ⟨15, _⟩ => ⟨S6400000, .f32⟩
  | .hbm, ⟨16, _⟩ => ⟨S6400000, .f32⟩
  | .hbm, ⟨17, _⟩ => ⟨S6400000x1, .i32⟩
  | .hbm, ⟨18, _⟩ => ⟨S6400000, .i32⟩
  | .hbm, ⟨19, _⟩ => ⟨S_, .f32⟩
  | .hbm, ⟨20, _⟩ => ⟨S100000, .f32⟩
  | .hbm, ⟨21, _⟩ => ⟨S6400000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | _, _ => ⟨S6400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  slices_S6400000x2_S6400000x1_0_0 : S6400000x2.Slices ![0, 0] S6400000x1
  shapeCasts_S6400000x1_S6400000 : S6400000x1.ShapeCasts S6400000
  bcast_S_S100000 : S_.BroadcastsInDim S100000 (![] : Fin 0 → Fin S100000.rank)
  bcast_S6400000_S6400000x1_0 : S6400000.BroadcastsInDim S6400000x1 (![0] : Fin 1 → Fin S6400000x1.rank)
  scatter_S100000_S6400000x1_S6400000_n_0_0_1_wf : ScatterDims.WF S100000 S6400000x1 S6400000 [] [0] [0] 1

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.Spec.lean ====
/-
  The Lennard-Jones pair energy as a function of one distance on the extended reals, and the one law
  that joins the two programs: the sixth power of x = 1/d grouped as (x·x·x)·(x·x·x) or as (x·x)·((x·x)·(x·x))
  is the same extended real, because multiplication there is associative. No finiteness is used.
-/
import Idealize.ShloMosaic.PureOps.Ideal
import Idealize.ShloMosaic.Lib.ValueIdx

noncomputable section

namespace Cert.PairEnergy

open Idealize.ShloMosaic

/-- The unit the distance is divided into (sigma), the factor 4·epsilon, and the energy shift at the cutoff,
    each as the value its float word denotes. -/
def sigma : EReal := Ideal.ofBits .f32 0x3F800000#32
def fourEps : EReal := Ideal.ofBits .f32 0x40800000#32
def shift : EReal := Ideal.ofBits .f32 0xBBB38CE4#32

/-- (sigma/d)^6 with the cube formed first and then squared. -/
def sixthCubeSquared (d : EReal) : EReal :=
  ((Ideal.div sigma d * Ideal.div sigma d) * Ideal.div sigma d) * ((Ideal.div sigma d * Ideal.div sigma d) * Ideal.div sigma d)

/-- The pair energy 4·eps·(c6² − c6) − shift at distance d, with c6 = (sigma/d)^6. -/
def energy (d : EReal) : EReal :=
  fourEps * (sixthCubeSquared d * sixthCubeSquared d - sixthCubeSquared d) - shift

/-- The square times the fourth power is the cube squared: associativity of the product on the extended reals. -/
theorem square_mul_fourth (x : EReal) : (x * x) * ((x * x) * (x * x)) = ((x * x) * x) * ((x * x) * x) := by
  simp only [mul_assoc]

/-- The energy written with the sixth power grouped as square times fourth power. -/
theorem energy_of_square_mul_fourth (d : EReal) :
    fourEps * ((Ideal.div sigma d * Ideal.div sigma d) * ((Ideal.div sigma d * Ideal.div sigma d) * (Ideal.div sigma d * Ideal.div sigma d))
        * ((Ideal.div sigma d * Ideal.div sigma d) * ((Ideal.div sigma d * Ideal.div sigma d) * (Ideal.div sigma d * Ideal.div sigma d)))
        - (Ideal.div sigma d * Ideal.div sigma d) * ((Ideal.div sigma d * Ideal.div sigma d) * (Ideal.div sigma d * Ideal.div sigma d))) - shift
      = energy d := by
  unfold energy sixthCubeSquared
  rw [square_mul_fourth]

end Cert.PairEnergy

end
-- ==== Proof.Result.lean ====
/-
  The result both programs are shown to compute, stated once: the pair energies of the distances, added onto the
  first atom of each pair (column 0 of the pair table, out-of-range entries dropped by the scatter) into an
  array of zeros over the atoms, and halved.
-/
import proofs.«129621_j39539468927522_1_alg».proof.KernelIdeal
import proofs.«129621_j39539468927522_1_alg».proof.Proof.Spec

noncomputable section

namespace Cert.PairEnergy

open Idealize.ShloMosaic Cert.KernelIdeal Cert.KernelIdeal.Facts₀

variable [Cert.KernelIdeal.Facts]

/-- The energy of every pair: the scalar energy at each distance. -/
def energies (d : FVec Ideal S6400000 .f32) : FVec Ideal S6400000 .f32 :=
  fun k => energy (d k)

/-- Half the sum, per atom, of the energies of the pairs whose first atom it is. -/
def atomEnergies (d : FVec Ideal S6400000 .f32) (pairs : IVec S6400000x2 32) :
    FVec Ideal S100000 .f32 :=
  Host.divf
    (Host.scatterAdd scatter_S100000_S6400000x1_S6400000_n_0_0_1
      (broadcastInDim S100000 ![] bcast_S_S100000 (constant (F := Ideal) S_ .f32 0x00000000#32))
      (broadcastInDim S6400000x1 ![0] bcast_S6400000_S6400000x1_0
        (shapeCast S6400000 (extractStridedSlice S6400000x1 ![0, 0] pairs slices_S6400000x2_S6400000x1_0_0) shapeCasts_S6400000x1_S6400000))
      (energies d))
    (broadcastInDim S100000 ![] bcast_S_S100000 (constant (F := Ideal) S_ .f32 0x40000000#32))

end Cert.PairEnergy

end
-- ==== Proof.Reference.lean ====
/-
  The reference's result, read off its run: every operation before the scatter is pointwise in the distance, so
  the array it scatters is the pair energy at each distance, with the sixth power grouped as square times
  fourth power; the scatter, the zeros, the column of first atoms and the halving are the same operations as in
  the stated result.
-/
import proofs.«129621_j39539468927522_1_alg».proof.Defs
import proofs.«129621_j39539468927522_1_alg».proof.Proof.Gen.ReferenceIdeal.Run
import proofs.«129621_j39539468927522_1_alg».proof.Proof.Result

noncomputable section

namespace Cert.ReferenceIdeal.RefValue

open Idealize.ShloMosaic Idealize.SL.Sem Cert.ReferenceIdeal Cert.ReferenceIdeal.Facts₀

variable [Cert.ReferenceIdeal.Facts] [Cert.KernelIdeal.Facts]

/-- sigma/d at every pair. -/
abbrev recip (d : FVec Ideal S6400000 .f32) : FVec Ideal S6400000 .f32 :=
  Host.divf (broadcastInDim S6400000 ![] bcast_S_S6400000 (constant (F := Ideal) S_ .f32 0x3F800000#32)) d

/-- (sigma/d)^6 as the reference forms it: the square times the square of the square. -/
abbrev sixth (d : FVec Ideal S6400000 .f32) : FVec Ideal S6400000 .f32 :=
  mulf (mulf (recip d) (recip d)) (mulf (mulf (recip d) (recip d)) (mulf (recip d) (recip d)))

/-- The array the reference scatters. -/
abbrev pairTerm (d : FVec Ideal S6400000 .f32) : FVec Ideal S6400000 .f32 :=
  subf (mulf (broadcastInDim S6400000 ![] bcast_S_S6400000 (constant (F := Ideal) S_ .f32 0x40800000#32))
      (subf (mulf (sixth d) (sixth d)) (sixth d)))
    (broadcastInDim S6400000 ![] bcast_S_S6400000 (constant (F := Ideal) S_ .f32 0xBBB38CE4#32))

/-- It is the pair energy at each distance. -/
theorem pairTerm_eq (d : FVec Ideal S6400000 .f32) : pairTerm d = Cert.PairEnergy.energies d := by
  funext k
  show pairTerm d k = Cert.PairEnergy.energy (d k)
  rw [← Cert.PairEnergy.energy_of_square_mul_fourth (d k)]
  simp only [pairTerm, sixth, recip, subf, mulf, Host.divf, broadcastInDim, constant, Ideal.subf_def, Ideal.mulf_def,
    Ideal.hostDivf_def, Ideal.ofBits_def, Cert.PairEnergy.sigma, Cert.PairEnergy.fourEps, Cert.PairEnergy.shift]

/-- The reference's result term is the stated result of its arguments. -/
theorem result_eq (d : FVec Ideal S6400000 .f32) (pairs : IVec S6400000x2 32) :
    Host.divf
      (Host.scatterAdd scatter_S100000_S6400000x1_S6400000_n_0_0_1
        (broadcastInDim S100000 ![] bcast_S_S100000 (constant (F := Ideal) S_ .f32 0x00000000#32))
        (broadcastInDim S6400000x1 ![0] bcast_S6400000_S6400000x1_0
          (shapeCast _ (extractStridedSlice S6400000x1 ![0, 0] pairs slices_S6400000x2_S6400000x1_0_0) shapeCasts_S6400000x1_S6400000))
        (pairTerm d))
      (broadcastInDim S100000 ![] bcast_S_S100000 (constant (F := Ideal) S_ .f32 0x40000000#32))
    = Cert.PairEnergy.atomEnergies d pairs := by
  rw [pairTerm_eq]
  rfl

end Cert.ReferenceIdeal.RefValue

end
-- ==== Proof.KernelArray.lean ====
/-
  What the kernel's output array holds after the region: the body is pointwise, so what a grid point writes back
  is its block of ONE whole-array function of the reshaped distances, the pair energy at each entry; the ten
  blocks of 5000 rows tile the 50000 rows, so the array ends holding that function everywhere.
-/
import proofs.«129621_j39539468927522_1_alg».proof.Proof.Gen.KernelIdeal.Frame
import proofs.«129621_j39539468927522_1_alg».proof.Proof.Result
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The energy of every entry of the reshaped distance array. -/
abbrev gridEnergies (a : S50000x128.Idx → Elt Ideal .f32) : S50000x128.Idx → Elt Ideal .f32 :=
  fun i => Cert.PairEnergy.energy (a i)

/-- The body's stored value is the pair energy of each loaded entry: the cast to the block's own shape is the
    identity, and every other operation acts entry by entry. -/
theorem payload_eq (x : Vec Ideal S5000x128 .f32) :
    k0_pay1 (F := Ideal) x = fun j => Cert.PairEnergy.energy (x j) := by
  unfold k0_pay1
  simp only [shapeCast_self]
  rfl

/-- The input's and the output's index maps agree at every grid point. -/
theorem index_agree : ∀ t : Fin cfg0.N, win0_0.index t (0 : Fin 2) = win0_1.index t (0 : Fin 2)
    ∧ win0_0.index t (1 : Fin 2) = win0_1.index t (1 : Fin 2) ∧ win0_1.index t (1 : Fin 2) = 0 :=
  (by decide +kernel : ∀ t : Fin grid0.N, _)

/-- Every one of the ten row blocks is some point's. -/
theorem index_onto : ∀ q : Fin 10, ∃ t : Fin cfg0.N, win0_1.index t = ![q.val, 0] :=
  (by decide +kernel : ∀ q : Fin 10, ∃ t : Fin grid0.N, win0_1.index t = ![q.val, 0])

/-- What point `t` writes back is block `t` of the energies of the reshaped distances. -/
theorem flushed_eq (c : Dev nD) (t : Fin cfg0.N) :
    (dats m 0 c).flushed 1 t = ((cfg0.win 1).blk t).view.read (Elt Ideal) (gridEnergies (V m c main_v0)) := by
  show (cfg0.win 1).cut (grid0.coords t) ((dats m 0 c).after 1 t) = _
  rw [after0_1]
  unfold out0_1
  rw [View.canon_unit_zero zero_offsets]
  simp only [View.ld_unit_zero (S := S5000x128) zero_offsets]
  rw [payload_eq]
  obtain ⟨e0, e1, e2⟩ := index_agree t
  funext j
  show Cert.PairEnergy.energy (V m c main_v0 (((cfg0.win 0).blk t).view.emb j))
    = Cert.PairEnergy.energy (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 5000 + 1 * (j 0).val = win0_1.index t (0 : Fin 2) * 5000 + 1 * (j 0).val; omega
    | ⟨1, _⟩ => show win0_0.index t (1 : Fin 2) * 128 + 1 * (j 1).val = win0_1.index t (1 : Fin 2) * 128 + 1 * (j 1).val; omega
  rw [h0]

/-- An entry is in point `t`'s block iff each coordinate is in the block's range. -/
theorem mem_block (t : Fin cfg0.N) (i : S50000x128.Idx) :
    i ∈ ((cfg0.win 1).blk t).view.set ↔ ∀ a : Fin 2, win0_1.index t a * S5000x128.size a ≤ (i a).val ∧ (i a).val < win0_1.index t a * S5000x128.size a + S5000x128.size a := by
  show i ∈ ((View.whole main_v1).slice (win0_1.rect t)).set ↔ _
  rw [View.set_slice_whole, Rect.mem_set_unit]
  exact Iff.rfl

/-- Every entry is in the block of the point that holds its row: row `r` is in block `r / 5000`. -/
theorem covered (i : S50000x128.Idx) :
    ∃ t : Fin cfg0.N, (cfg0.win 1).flush t = true ∧ i ∈ ((cfg0.win 1).blk t).view.set := by
  have hi0 : (i 0).val < 50000 := (i 0).isLt
  have hi1 : (i 1).val < 128 := (i 1).isLt
  obtain ⟨t, ht⟩ := index_onto ⟨(i 0).val / 5000, by omega⟩
  have q0 : win0_1.index t (0 : Fin 2) = (i 0).val / 5000 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 5000 ≤ (i 0).val ∧ (i 0).val < win0_1.index t (0 : Fin 2) * 5000 + 5000; omega
  | ⟨1, _⟩ => show win0_1.index t (1 : Fin 2) * 128 ≤ (i 1).val ∧ (i 1).val < win0_1.index t (1 : Fin 2) * 128 + 128; omega

/-- The output array after the region: the energy of every entry of the reshaped distances. -/
theorem final (c : Dev nD) : (dats m 0 c).arrAt 1 cfg0.N = gridEnergies (V m c main_v0) :=
  (dats m 0 c).arrAt_eq_of_cover 1 (gridEnergies (V m c main_v0)) (fun t _ => flushed_eq m c t) covered

/-- The region finds the distances reshaped to 50000 rows of 128: the one host operation before it. -/
theorem V_main_v0 (c : Dev nD) :
    (V m c main_v0 : S50000x128.Idx → EReal)
      = shapeCast S50000x128 (m ((c : Thread nD τ).loc main_arg0)) Facts₀.shapeCasts_S6400000_S50000x128 := by
  show StableHlo.after hostOps0 (fun b => m (c, b)) (Proc.devRef .tc main_v0) = _
  after_results
  rfl

end Cert.KernelIdeal.KValue

end
-- ==== Proof.KernelTail.lean ====
/-
  The kernel program's result: after the region the energies array is reshaped back to one row per pair, which
  undoes the reshape before the region entry by entry; the scatter onto the first atoms, the zeros and the
  halving are then applied to the pair energies of the distances themselves.
-/
import proofs.«129621_j39539468927522_1_alg».proof.Proof.KernelArray
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- Reshaping to rows of 128, taking the energy of every entry, and reshaping back is taking the energy of every
    pair: a reshape only renames positions, and there and back is the identity. -/
theorem energies_roundtrip (d : FVec Ideal S6400000 .f32) :
    shapeCast S6400000 (gridEnergies (shapeCast S50000x128 d Facts₀.shapeCasts_S6400000_S50000x128)) Facts₀.shapeCasts_S50000x128_S6400000
      = Cert.PairEnergy.energies d := by
  funext k
  show Cert.PairEnergy.energy (shapeCast S6400000 (shapeCast S50000x128 d Facts₀.shapeCasts_S6400000_S50000x128) Facts₀.shapeCasts_S50000x128_S6400000 k) = _
  rw [shapeCast_shapeCast]
  rfl

/-- The result buffer after the host operations that follow the region. -/
theorem tail_result (c : Dev nD) :
    Pipeline.afterTail₀ cfgs (dats m) 0 (V0 m) [hostOps1] c main_v9
      = Cert.PairEnergy.atomEnergies (m ((c : Thread nD τ).loc main_arg0)) (m ((c : Thread nD τ).loc main_arg2)) := by
  unfold Pipeline.afterTail₀
  show StableHlo.after hostOps1 _ (Proc.devRef .tc main_v9) = _
  after_results
  have hv1 : Pipeline.withArrays (cfgs 0).spec c (V0 m c) (fun w => (dats m 0 c).arrAt w (cfgs 0).N) (Proc.devRef .tc main_v1)
      = gridEnergies (V m c main_v0) :=
    (Pipeline.withArrays_arr spec0 launch0.win.arr_inj c _ _ 1).trans (final m c)
  have ha2 : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) _ main_arg2 (by decide)).trans (V_main_arg2 m c)
  rw [hv1, ha2, V_main_v0]
  unfold Cert.PairEnergy.atomEnergies
  rw [← energies_roundtrip]
  rfl

/-- The kernel program runs, ends with the stated result, and leaves its arguments as launched. -/
theorem run : θ_run defs (onTc (τ := τ) (main (F := Ideal))) ⟨m, fun _ => 0, ρ⟩ fun r => ∀ c : Dev nD,
      r.2.mem ((c.tc : Thread nD τ).loc main_v9)
        = Cert.PairEnergy.atomEnergies (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v9 (Pipeline.mem_restRefs_of main_v9 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.lean ====
/-
  A Lennard-Jones pair energy summed per atom. Both programs take the distance d of each of 6 400 000 pairs to
  4·eps·(c6² − c6) − shift with c6 = (sigma/d)^6, add each pair's energy onto the first atom of the pair, and halve.
  They differ in two things only. The kernel forms the sixth power as the cube squared, the reference as the
  square times its own square; the product of the extended reals is associative, so the two are one number for
  every d, finite or not (Proof/Spec.lean). And the kernel computes the energies on the distances laid out as
  50 000 rows of 128, ten blocks of 5 000 rows at a time, and lays the result out flat again; the body acts entry by
  entry and the blocks tile the array, so that is the energy of every pair in place (Proof/KernelArray.lean,
  Proof/KernelTail.lean). The reference's run gives the same array directly (Proof/Reference.lean), and the scatter,
  the zeros and the halving are the same operations on both sides (Proof/Result.lean states the common result).
  The precondition is never opened: no step needs a finite input. The idealization rewrote nothing, so its
  claim is trivial.
-/
import proofs.«129621_j39539468927522_1_alg».proof.Defs
import proofs.«129621_j39539468927522_1_alg».proof.Proof.Gen.Kernel
import proofs.«129621_j39539468927522_1_alg».proof.Proof.Gen.Kernel.Skeleton
import proofs.«129621_j39539468927522_1_alg».proof.Proof.Gen.Kernel.Launch
import proofs.«129621_j39539468927522_1_alg».proof.Proof.Gen.Kernel.Points
import proofs.«129621_j39539468927522_1_alg».proof.Proof.Gen.Kernel.Frame
import proofs.«129621_j39539468927522_1_alg».proof.Proof.Gen.KernelIdeal
import proofs.«129621_j39539468927522_1_alg».proof.Proof.Gen.KernelIdeal.Skeleton
import proofs.«129621_j39539468927522_1_alg».proof.Proof.Gen.KernelIdeal.Launch
import proofs.«129621_j39539468927522_1_alg».proof.Proof.Gen.KernelIdeal.Points
import proofs.«129621_j39539468927522_1_alg».proof.Proof.Gen.KernelIdeal.Frame
import proofs.«129621_j39539468927522_1_alg».proof.Proof.Gen.ReferenceIdeal
import proofs.«129621_j39539468927522_1_alg».proof.Proof.Gen.Pre_finite_inputs
import proofs.«129621_j39539468927522_1_alg».proof.Proof.Reference
import proofs.«129621_j39539468927522_1_alg».proof.Proof.KernelTail
import Idealize.ShloMosaic.Adequacy
import Idealize.ShloMosaic.Init

noncomputable section

namespace Cert.Proof

open Idealize.ShloMosaic Idealize.SL.Sem Cert.Kernel

/-- At the ideal instance both programs end with the stated per-atom energies of arguments that agree. -/
theorem algebraic : Cert.algebraic_KernelIdeal_ReferenceIdeal := by
  intro m ρ m' ρ' _ hagree
  refine ⟨fun c => Cert.PairEnergy.atomEnergies
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
